-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S262144x8 : S_.BroadcastsInDim S262144x8 (![] : Fin 0 → Fin S262144x8.rank)
  reducesTo_S262144x8_S_d0_1 : S262144x8.ReducesTo [0, 1] S_

variable [Facts]

def fn_part2 {F : FTy → Type} [FloatOps F] (main_arg7 : FVec F S262144x8 .f32) (main_v33 : IVec S_ 1) : IVec S_ 1 :=
  let main_v34 : FVec F S262144x8 .f32 := Host.absf main_arg7
  let main_cst_12 : FVec F S_ .f32 := constant S_ .f32 0x7F800000#32
  let main_v35 : FVec F S262144x8 .f32 := broadcastInDim S262144x8 ![] bcast_S_S262144x8 main_cst_12
  let main_v36 : IVec S262144x8 1 := cmpf .olt main_v34 main_v35
  let main_c_13 : IVec S_ 1 := constantI S_ 1 1#1
  let main_v37 : IVec S_ 1 := (fun x v => Host.reduce IntOp.andi x v reducesTo_S262144x8_S_d0_1 h_S_) main_v36 main_c_13
  let main_v38 : IVec S_ 1 := andi main_v33 main_v37
  main_v38

def fn_part1 {F : FTy → Type} [FloatOps F] (main_arg4 : FVec F S256 .f32) (main_arg5 : FVec F S16x256 .f32) (main_arg6 : FVec F S16 .f32) (main_arg7 : FVec F S262144x8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S256x128 .f32) (main_arg2 : FVec F S256 .f32) (main_arg3 : FVec F S256x256 .f32) (main_arg4 : FVec F S256 .f32) (main_arg5 : FVec F S16x256 .f32) (main_arg6 : FVec F S16 .f32) (main_arg7 : FVec F S262144x8 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S1x256 : Shape := ⟨2, ![1, 256]⟩
abbrev S1x16 : Shape := ⟨2, ![1, 16]⟩
abbrev S2048x128 : Shape := ⟨2, ![2048, 128]⟩
abbrev S2048x8 : Shape := ⟨2, ![2048, 8]⟩
abbrev S128x256 : Shape := ⟨2, ![128, 256]⟩
abbrev S2048x256 : Shape := ⟨2, ![2048, 256]⟩
abbrev S256x16 : Shape := ⟨2, ![256, 16]⟩
abbrev S2048x16 : Shape := ⟨2, ![2048, 16]⟩

abbrev nBuf : Space → Nat
  | .hbm => 15
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S262144x8, .f32⟩
  | .hbm, ⟨8, _⟩ => ⟨S256x128, .bf16⟩
  | .hbm, ⟨9, _⟩ => ⟨S256x256, .bf16⟩
  | .hbm, ⟨10, _⟩ => ⟨S16x256, .bf16⟩
  | .hbm, ⟨11, _⟩ => ⟨S1x256, .f32⟩
  | .hbm, ⟨12, _⟩ => ⟨S1x256, .f32⟩
  | .hbm, ⟨13, _⟩ => ⟨S1x16, .f32⟩
  | .hbm, ⟨14, _⟩ => ⟨S262144x8, .i32⟩
  | .local _ .vmem, ⟨0, _⟩ => ⟨S2048x128, .f32⟩
  | .local _ .vmem, ⟨1, _⟩ => ⟨S2048x128, .f32⟩
  | .local _ .vmem, ⟨2, _⟩ => ⟨S2048x8, .f32⟩
  | .local _ .vmem, ⟨3, _⟩ => ⟨S2048x8, .f32⟩
  | .local _ .vmem, ⟨4, _⟩ => ⟨S256x128, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S16x256, .bf16⟩
  | .local _ .vmem, ⟨9, _⟩ => ⟨S1x16, .f32⟩
  | .local _ .vmem, ⟨10, _⟩ => ⟨S2048x8, .i32⟩
  | .local _ .vmem, ⟨11, _⟩ => ⟨S2048x8, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x8 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S256_S1x256 : S256.ShapeCasts S1x256
  shapeCasts_S16_S1x16 : S16.ShapeCasts S1x16
  inb_S2048x128_S2048x128_0_0 : ∀ a, (![0, 0] : Fin 2 → Nat) a + S2048x128.size a ≤ S2048x128.size a
  h_S2048x128 : 0 < S2048x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  transposes_S16x256_p1_0_S256x16 : S16x256.Transposes [1, 0] S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  slices_S2048x16_o0_0_S2048x8 : S2048x16.Slices ![0, 0] S2048x8
  slices_S2048x16_o0_8_S2048x8 : S2048x16.Slices ![0, 8] S2048x8
  inb_S2048x8_S2048x8_0_0 : ∀ a, (![0, 0] : Fin 2 → Nat) a + S2048x8.size a ≤ S2048x8.size a
  h_S2048x8 : 0 < S2048x8.numel
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S262144x8.size a
  hwx0_1 : ∀ i : grid0.Coords, EltTy.bits .f32 = 32 ∨ (Rect.block (s := S262144x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .bf16 = 32 ∨ (Rect.block (s := S16x256) S16x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x8.size a ≤ S262144x8.size a
  hwx0_8 : ∀ i : grid0.Coords, EltTy.bits .i32 = 32 ∨ (Rect.block (s := S262144x8) S2048x8.size (cc0_transform_8 i) (hinb0_8 i)).WholeWords (EltTy.packing .i32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2048x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S256 : Shape := ⟨1, ![256]⟩
abbrev S256x256 : Shape := ⟨2, ![256, 256]⟩
abbrev S16x256 : Shape := ⟨2, ![16, 256]⟩
abbrev S16 : Shape := ⟨1, ![16]⟩
abbrev S262144x8 : Shape := ⟨2, ![262144, 8]⟩
abbrev S128x256 : Shape := ⟨2, ![128, 256]⟩
abbrev S262144x256 : Shape := ⟨2, ![262144, 256]⟩
abbrev S1x256 : Shape := ⟨2, ![1, 256]⟩
abbrev S_ : Shape := ⟨0, ![]⟩
abbrev S256x16 : Shape := ⟨2, ![256, 16]⟩
abbrev S262144x16 : Shape := ⟨2, ![262144, 16]⟩
abbrev S1x16 : Shape := ⟨2, ![1, 16]⟩

abbrev nBuf : Space → Nat
  | .hbm => 49
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256, .f32⟩
  | .hbm, ⟨6, _⟩ => ⟨S16, .f32⟩
  | .hbm, ⟨7, _⟩ => ⟨S262144x8, .f32⟩
  | .hbm, ⟨8, _⟩ => ⟨S128x256, .f32⟩
  | .hbm, ⟨9, _⟩ => ⟨S262144x256, .f32⟩
  | .hbm, ⟨10, _⟩ => ⟨S1x256, .f32⟩
  | .hbm, ⟨11, _⟩ => ⟨S262144x256, .f32⟩
  | .hbm, ⟨12, _⟩ => ⟨S262144x256, .f32⟩
  | .hbm, ⟨13, _⟩ => ⟨S_, .f32⟩
  | .hbm, ⟨14, _⟩ => ⟨S262144x256, .f32⟩
  | .hbm, ⟨15, _⟩ => ⟨S262144x256, .f32⟩
  | .hbm, ⟨16, _⟩ => ⟨S256x256, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S256x16, .f32⟩
  | .hbm, ⟨25, _⟩ => ⟨S262144x16, .f32⟩
  | .hbm, ⟨26, _⟩ => ⟨S1x16, .f32⟩
  | .hbm, ⟨27, _⟩ => ⟨S262144x16, .f32⟩
  | .hbm, ⟨28, _⟩ => ⟨S262144x16, .f32⟩
  | .hbm, ⟨29, _⟩ => ⟨S262144x8, .f32⟩
  | .hbm, ⟨30, _⟩ => ⟨S262144x8, .f32⟩
  | .hbm, ⟨31, _⟩ => ⟨S262144x8, .f32⟩
  | .hbm, ⟨32, _⟩ => ⟨S262144x8, .f32⟩
  | .hbm, ⟨33, _⟩ => ⟨S262144x8, .f32⟩
  | .hbm, ⟨34, _⟩ => ⟨S262144x8, .f32⟩
  | .hbm, ⟨35, _⟩ => ⟨S262144x8, .f32⟩
  | .hbm, ⟨36, _⟩ => ⟨S_, .f32⟩
  | .hbm, ⟨37, _⟩ => ⟨S262144x8, .f32⟩
  | .hbm, ⟨38, _⟩ => ⟨S262144x8, .f32⟩
  | .hbm, ⟨39, _⟩ => ⟨S_, .f32⟩
  | .hbm, ⟨40, _⟩ => ⟨S262144x8, .f32⟩
  | .hbm, ⟨41, _⟩ => ⟨S262144x8, .f32⟩
  | .hbm, ⟨42, _⟩ => ⟨S_, .f32⟩
  | .hbm, ⟨43, _⟩ => ⟨S262144x8, .f32⟩
  | .hbm, ⟨44, _⟩ => ⟨S262144x8, .f32⟩
  | .hbm, ⟨45, _⟩ => ⟨S_, .f32⟩
  | .hbm, ⟨46, _⟩ => ⟨S262144x8, .f32⟩
  | .hbm, ⟨47, _⟩ => ⟨S262144x8, .f32⟩
  | .hbm, ⟨48, _⟩ => ⟨S262144x8, .i32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  transposes_S16x256_S256x16_1_0 : S16x256.Transposes [1, 0] S256x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  slices_S262144x16_S262144x8_0_0 : S262144x16.Slices ![0, 0] S262144x8
  slices_S262144x16_S262144x8_0_8 : S262144x16.Slices ![0, 8] S262144x8
  bcast_S_S262144x8 : S_.BroadcastsInDim S262144x8 (![] : Fin 0 → Fin S262144x8.rank)
  dot_S262144x128_S128x256_S262144x256_1_0_0_1_n_n_wf : DotDims.WF S262144x128 S128x256 S262144x256 [1] [0] [0] [1] [] []
  dot_S262144x256_S256x256_S262144x256_1_0_0_1_n_n_wf : DotDims.WF S262144x256 S256x256 S262144x256 [1] [0] [0] [1] [] []
  dot_S262144x256_S256x16_S262144x16_1_0_0_1_n_n_wf : DotDims.WF S262144x256 S256x16 S262144x16 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x16_S262144x16_1_0_0_1_n_n : DotDims S262144x256 S256x16 S262144x16 where
  lhsContracting := [1]
  rhsContracting := [0]
  lhsNonContracting := [0]
  rhsNonContracting := [1]
  lhsBatch := []
  rhsBatch := []
  wf := dot_S262144x256_S256x16_S262144x16_1_0_0_1_n_n_wf

class Facts : Prop extends Facts₀ where

variable [Facts]
-- ==== Proof.PolicySpec.lean ====
/-
  The function both programs compute, index by index, on the extended reals.

  A row `x` of the state (128 entries) passes two rectified affine layers of width 256 and one affine layer of width 16:
      h¹ⱼ = max (Σₖ xₖ · W¹ⱼₖ + b¹ⱼ) 0,    h²ⱼ = max (Σₖ h¹ₖ · W²ⱼₖ + b²ⱼ) 0,    nⱼ = Σₖ h²ₖ · W³ⱼₖ + b³ⱼ,
  every weight matrix indexed (output unit, input unit). The first eight entries of `n` are a mean and the last eight
  a spread: with the row's noise `e` the sampled action is `σ (nₐ + |nₐ₊₈| · eₐ)`, `σ y = 1 / (1 + exp (-y))` the logistic
  function, and the result is `8 · σ + 1` rounded toward zero to a 32-bit integer.

  Nothing here is rearranged between the two programs: each sums the same products over the same index and applies the
  same scalar operations in the same order, so the functions below are what BOTH compute, and no law of the extended
  reals beyond that is needed (in particular none that would ask the entries to be finite). The float patterns of
  `0.0`, `8.0` and `1.0` in the rectifier and the final scaling stay as patterns: both programs spell the same words.
-/
import Idealize.ShloMosaic.PureOps.Ideal
import Idealize.ShloMosaic.Lib.ValueIdx

noncomputable section

namespace Cert.Policy

open Idealize.ShloMosaic

/-- An affine unit: the inner product of an input row `a` and a weight row `w`, plus a bias. -/
def affine {K : Nat} (a w : Fin K → EReal) (b : EReal) : EReal := (∑ k : Fin K, a k * w k) + b

/-- A rectified affine unit: the affine unit, cut off below at `+0.0`. -/
def rectified {K : Nat} (a w : Fin K → EReal) (b : EReal) : EReal :=
  max (affine a w b) (Ideal.ofBits .f32 0x00000000#32)

/-- The first hidden layer of a state row `x`: unit `j` is rectified, against row `j` of `W¹`. -/
def hidden₁ (x : Fin 128 → EReal) (W₁ : Fin 256 → Fin 128 → EReal) (b₁ : Fin 256 → EReal) (j : Fin 256) : EReal :=
  rectified x (W₁ j) (b₁ j)

/-- The second hidden layer, of the first one's row. -/
def hidden₂ (h : Fin 256 → EReal) (W₂ : Fin 256 → Fin 256 → EReal) (b₂ : Fin 256 → EReal) (j : Fin 256) : EReal :=
  rectified h (W₂ j) (b₂ j)

/-- The head: sixteen affine units of the second hidden row, not rectified. -/
def head (h : Fin 256 → EReal) (W₃ : Fin 16 → Fin 256 → EReal) (b₃ : Fin 16 → EReal) (j : Fin 16) : EReal :=
  affine h (W₃ j) (b₃ j)

/-- The head of a state row through all three layers. -/
def net (x : Fin 128 → EReal) (W₁ : Fin 256 → Fin 128 → EReal) (b₁ : Fin 256 → EReal) (W₂ : Fin 256 → Fin 256 → EReal)
    (b₂ : Fin 256 → EReal) (W₃ : Fin 16 → Fin 256 → EReal) (b₃ : Fin 16 → EReal) : Fin 16 → EReal :=
  head (hidden₂ (hidden₁ x W₁ b₁) W₂ b₂) W₃ b₃

/-- The sample before the logistic function: the mean `nₐ` plus the spread `|nₐ₊₈|` times the noise `eₐ`; the absolute
    value of an extended real `y` is `max y (-y)`. -/
def sample (n : Fin 16 → EReal) (e : Fin 8 → EReal) (a : Fin 8) : EReal :=
  n ⟨a.val, by omega⟩ + max (n ⟨8 + a.val, by omega⟩) (-(n ⟨8 + a.val, by omega⟩)) * e a

/-- The action word of a sample `y`: `σ y · 8.0 + 1.0`, rounded toward zero to 32 bits. -/
def action (y : EReal) : BitVec 32 :=
  Ideal.fptosi 32 (Ideal.logistic y * Ideal.ofBits .f32 0x41000000#32 + Ideal.ofBits .f32 0x3F800000#32)

/-- The whole result: entry `(r, a)` is the action word of row `r`'s sample `a`, the row read off the state `X`, its
    noise off `E`, the weights and biases as given. -/
def policy (X : Fin 262144 → Fin 128 → EReal) (W₁ : Fin 256 → Fin 128 → EReal) (b₁ : Fin 256 → EReal)
    (W₂ : Fin 256 → Fin 256 → EReal) (b₂ : Fin 256 → EReal) (W₃ : Fin 16 → Fin 256 → EReal) (b₃ : Fin 16 → EReal)
    (E : Fin 262144 → Fin 8 → EReal) (r : Fin 262144) (a : Fin 8) : BitVec 32 :=
  action (sample (net (X r) W₁ b₁ W₂ b₂ W₃ b₃) (E r) a)

end Cert.Policy

end
-- ==== Proof.KernelRow.lean ====
/-
  What one grid point's body computes, read at an entry of its output block.

  The body sees 2048 rows of the state (`v0`), their noise (`v35`), and the three weight matrices and biases whole
  (`v2`, `v6`; `v13`, `v17`; `v24`, `v28` — each bias a single row). Row `p` of its result depends on row `p` of the state
  and of the noise only: each matrix product's entry `(p, j)` is the sum over `k` of the left operand's `(p, k)` times
  the weight's `(j, k)` (the weight is transposed before the product, so the product's right operand at `(k, j)` is the
  weight at `(j, k)`), the bias row is repeated down the rows, the rectifier and the changes of float format act entry
  by entry (the latter as the identity on the extended reals), and the two halves of the last layer are read at columns
  `a` and `8 + a`. So entry `(p, a)` of the block is the action word of `Policy.sample` of `Policy.net` of row `p`.
-/
import proofs.«144977_j34110630265503_1_alg».proof.Proof.Gen.KernelIdeal.Skeleton
import proofs.«144977_j34110630265503_1_alg».proof.Proof.PolicySpec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Idealize.ShloMosaic.TcCoe

/-! ## The first product: 2048×128 by the transposed 256×128 weight -/

theorem lhs₁_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs₁_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs₁_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs₁_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry `(p, j)` of the first product is the inner product of row `p` of the left operand and row `j` of the weight. -/
theorem product₁ (l : FVec Ideal S2048x128 .bf16) (w : FVec Ideal S256x128 .bf16) (p : Fin 2048) (j : Fin 256) :
    matmul dot_S2048x128_S128x256_S2048x256_1_0_0_1_n_n none l
        (transpose S128x256 [1, 0] (shapeCast S256x128 w shapeCasts_S256x128_S256x128) transposes_S256x128_p1_0_S128x256)
        (constant S2048x256 .f32 0x00000000#32) (ix2 p j)
      = ∑ k : Fin 128, l (ix2 p k) * w (ix2 j k) := by
  rw [shapeCast_self]
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p j) ((contrEquiv1 dot_S2048x128_S128x256_S2048x256_1_0_0_1_n_n 128 rfl rfl).symm k) = ix2 p k := funext fun a => Fin.ext (by
    match a with
    | ⟨0, _⟩ => exact lhs₁_0 _ _
    | ⟨1, _⟩ => exact (lhs₁_1 _ _).trans hk)
  have er : transpose S128x256 [1, 0] w transposes_S256x128_p1_0_S128x256 (dot_S2048x128_S128x256_S2048x256_1_0_0_1_n_n.rhsIdx (ix2 p j) ((contrEquiv1 dot_S2048x128_S128x256_S2048x256_1_0_0_1_n_n 128 rfl rfl).symm k)) = w (ix2 j k) :=
    transpose_apply [1, 0] w transposes_S256x128_p1_0_S128x256 _ (ix2 j k) (fun b => match b with
      | ⟨0, _⟩ => by show k.val = _; exact ((rhs₁_0 _ _).trans hk).symm
      | ⟨1, _⟩ => by show j.val = _; exact (rhs₁_1 (ix2 p j) _).symm)
  rw [el, er]

/-! ## The second product: 2048×256 by the transposed 256×256 weight -/

theorem lhs₂_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs₂_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs₂_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs₂_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry `(p, j)` of the second product is the inner product of row `p` of the left operand and row `j` of the weight. -/
theorem product₂ (l : FVec Ideal S2048x256 .bf16) (w : FVec Ideal S256x256 .bf16) (p : Fin 2048) (j : Fin 256) :
    matmul dot_S2048x256_S256x256_S2048x256_1_0_0_1_n_n none l
        (transpose S256x256 [1, 0] (shapeCast S256x256 w shapeCasts_S256x256_S256x256) transposes_S256x256_p1_0_S256x256)
        (constant S2048x256 .f32 0x00000000#32) (ix2 p j)
      = ∑ k : Fin 256, l (ix2 p k) * w (ix2 j k) := by
  rw [shapeCast_self]
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p j) ((contrEquiv1 dot_S2048x256_S256x256_S2048x256_1_0_0_1_n_n 256 rfl rfl).symm k) = ix2 p k := funext fun a => Fin.ext (by
    match a with
    | ⟨0, _⟩ => exact lhs₂_0 _ _
    | ⟨1, _⟩ => exact (lhs₂_1 _ _).trans hk)
  have er : transpose S256x256 [1, 0] w transposes_S256x256_p1_0_S256x256 (dot_S2048x256_S256x256_S2048x256_1_0_0_1_n_n.rhsIdx (ix2 p j) ((contrEquiv1 dot_S2048x256_S256x256_S2048x256_1_0_0_1_n_n 256 rfl rfl).symm k)) = w (ix2 j k) :=
    transpose_apply [1, 0] w transposes_S256x256_p1_0_S256x256 _ (ix2 j k) (fun b => match b with
      | ⟨0, _⟩ => by show k.val = _; exact ((rhs₂_0 _ _).trans hk).symm
      | ⟨1, _⟩ => by show j.val = _; exact (rhs₂_1 (ix2 p j) _).symm)
  rw [el, er]

/-! ## The third product: 2048×256 by the transposed 16×256 weight -/

theorem lhs₃_0 (i : S2048x16.Idx) (q : dot_S2048x256_S256x16_S2048x16_1_0_0_1_n_n.contr.Idx) :
    (dot_S2048x256_S256x16_S2048x16_1_0_0_1_n_n.lhsIdx i q 0).val = (i 0).val := by
  unfold DotDims.lhsIdx
  rw [dif_neg (show ¬(0 : Fin S2048x256.rank) ∈ dot_S2048x256_S256x16_S2048x16_1_0_0_1_n_n.lhsBatch by decide), dif_pos (show (0 : Fin S2048x256.rank) ∈ dot_S2048x256_S256x16_S2048x16_1_0_0_1_n_n.lhsNonContracting by decide)]
  rfl
theorem lhs₃_1 (i : S2048x16.Idx) (q : dot_S2048x256_S256x16_S2048x16_1_0_0_1_n_n.contr.Idx) :
    (dot_S2048x256_S256x16_S2048x16_1_0_0_1_n_n.lhsIdx i q 1).val = (q ⟨0, by decide⟩).val :=
  dot_S2048x256_S256x16_S2048x16_1_0_0_1_n_n.lhsIdx_val_of_single rfl i q
theorem rhs₃_0 (i : S2048x16.Idx) (q : dot_S2048x256_S256x16_S2048x16_1_0_0_1_n_n.contr.Idx) :
    (dot_S2048x256_S256x16_S2048x16_1_0_0_1_n_n.rhsIdx i q 0).val = (q ⟨0, by decide⟩).val :=
  dot_S2048x256_S256x16_S2048x16_1_0_0_1_n_n.rhsIdx_val_of_single rfl i q
theorem rhs₃_1 (i : S2048x16.Idx) (q : dot_S2048x256_S256x16_S2048x16_1_0_0_1_n_n.contr.Idx) :
    (dot_S2048x256_S256x16_S2048x16_1_0_0_1_n_n.rhsIdx i q 1).val = (i 1).val := by
  unfold DotDims.rhsIdx
  rw [dif_neg (show ¬(1 : Fin S256x16.rank) ∈ dot_S2048x256_S256x16_S2048x16_1_0_0_1_n_n.rhsBatch by decide), dif_pos (show (1 : Fin S256x16.rank) ∈ dot_S2048x256_S256x16_S2048x16_1_0_0_1_n_n.rhsNonContracting by decide)]
  rfl

/-- Entry `(p, j)` of the third product is the inner product of row `p` of the left operand and row `j` of the weight. -/
theorem product₃ (l : FVec Ideal S2048x256 .bf16) (w : FVec Ideal S16x256 .bf16) (p : Fin 2048) (j : Fin 16) :
    matmul dot_S2048x256_S256x16_S2048x16_1_0_0_1_n_n none l
        (transpose S256x16 [1, 0] (shapeCast S16x256 w shapeCasts_S16x256_S16x256) transposes_S16x256_p1_0_S256x16)
        (constant S2048x16 .f32 0x00000000#32) (ix2 p j)
      = ∑ k : Fin 256, l (ix2 p k) * w (ix2 j k) := by
  rw [shapeCast_self]
  simp only [matmul]
  rw [Ideal.matmul_constant_zero_apply, ← Equiv.sum_comp (contrEquiv1 dot_S2048x256_S256x16_S2048x16_1_0_0_1_n_n 256 rfl rfl).symm]
  refine Finset.sum_congr rfl fun k _ => ?_
  have hk := contrEquiv1_symm_val dot_S2048x256_S256x16_S2048x16_1_0_0_1_n_n 256 rfl rfl k
  have el : dot_S2048x256_S256x16_S2048x16_1_0_0_1_n_n.lhsIdx (ix2 p j) ((contrEquiv1 dot_S2048x256_S256x16_S2048x16_1_0_0_1_n_n 256 rfl rfl).symm k) = ix2 p k := funext fun a => Fin.ext (by
    match a with
    | ⟨0, _⟩ => exact lhs₃_0 _ _
    | ⟨1, _⟩ => exact (lhs₃_1 _ _).trans hk)
  have er : transpose S256x16 [1, 0] w transposes_S16x256_p1_0_S256x16 (dot_S2048x256_S256x16_S2048x16_1_0_0_1_n_n.rhsIdx (ix2 p j) ((contrEquiv1 dot_S2048x256_S256x16_S2048x16_1_0_0_1_n_n 256 rfl rfl).symm k)) = w (ix2 j k) :=
    transpose_apply [1, 0] w transposes_S16x256_p1_0_S256x16 _ (ix2 j k) (fun b => match b with
      | ⟨0, _⟩ => by show k.val = _; exact ((rhs₃_0 _ _).trans hk).symm
      | ⟨1, _⟩ => by show j.val = _; exact (rhs₃_1 (ix2 p j) _).symm)
  rw [el, er]

/-! ## A bias row repeated down the rows -/

/-- The 256-wide bias row, cast to its own shape and repeated over 2048 rows, reads at `(p, j)` its entry `j`. -/
theorem bias₂₅₆ (b : FVec Ideal S1x256 .f32) (p : Fin 2048) (j : Fin 256) :
    broadcastTo S2048x256 (shapeCast S1x256 b shapeCasts_S1x256_S1x256) broadcasts_S1x256_S2048x256 (ix2 p j) = b (ix2 0 j) := by
  rw [shapeCast_self]
  exact broadcastTo_apply b broadcasts_S1x256_S2048x256 (ix2 p j) (ix2 0 j) (fun a => match a with
    | ⟨0, _⟩ => by show 0 = if (1 : Nat) = 1 then 0 else _; rw [if_pos rfl]
    | ⟨1, _⟩ => by show j.val = if (256 : Nat) = 1 then 0 else _; rw [if_neg (by decide)]; rfl)

/-- The 16-wide bias row likewise. -/
theorem bias₁₆ (b : FVec Ideal S1x16 .f32) (p : Fin 2048) (j : Fin 16) :
    broadcastTo S2048x16 (shapeCast S1x16 b shapeCasts_S1x16_S1x16) broadcasts_S1x16_S2048x16 (ix2 p j) = b (ix2 0 j) := by
  rw [shapeCast_self]
  exact broadcastTo_apply b broadcasts_S1x16_S2048x16 (ix2 p j) (ix2 0 j) (fun a => match a with
    | ⟨0, _⟩ => by show 0 = if (1 : Nat) = 1 then 0 else _; rw [if_pos rfl]
    | ⟨1, _⟩ => by show j.val = if (16 : Nat) = 1 then 0 else _; rw [if_neg (by decide)]; rfl)

/-! ## The body's stages, named -/

/-- The first hidden activations of the block: the rectified first layer, in the narrower float format. -/
def act₁ (v0 : FVec Ideal S2048x128 .f32) (v2 : FVec Ideal S256x128 .bf16) (v6 : FVec Ideal S1x256 .f32) : FVec Ideal S2048x256 .bf16 :=
  truncf .bf16 (maximumf (addf (matmul dot_S2048x128_S128x256_S2048x256_1_0_0_1_n_n none (truncf .bf16 v0 bitsLt_bf16_f32 : FVec Ideal S2048x128 .bf16)
      (transpose S128x256 [1, 0] (shapeCast S256x128 v2 shapeCasts_S256x128_S256x128 : FVec Ideal S256x128 .bf16) transposes_S256x128_p1_0_S128x256 : FVec Ideal S128x256 .bf16)
      (constant S2048x256 .f32 0x00000000#32))
    (broadcastTo S2048x256 (shapeCast S1x256 v6 shapeCasts_S1x256_S1x256 : FVec Ideal S1x256 .f32) broadcasts_S1x256_S2048x256))
    (broadcast S2048x256 (Scalar.ofBits .f32 0x00000000#32))) bitsLt_bf16_f32

/-- The second hidden activations, of the first ones `l`. -/
def act₂ (l : FVec Ideal S2048x256 .bf16) (v13 : FVec Ideal S256x256 .bf16) (v17 : FVec Ideal S1x256 .f32) : FVec Ideal S2048x256 .bf16 :=
  truncf .bf16 (maximumf (addf (matmul dot_S2048x256_S256x256_S2048x256_1_0_0_1_n_n none l
      (transpose S256x256 [1, 0] (shapeCast S256x256 v13 shapeCasts_S256x256_S256x256 : FVec Ideal S256x256 .bf16) transposes_S256x256_p1_0_S256x256 : FVec Ideal S256x256 .bf16)
      (constant S2048x256 .f32 0x00000000#32))
    (broadcastTo S2048x256 (shapeCast S1x256 v17 shapeCasts_S1x256_S1x256 : FVec Ideal S1x256 .f32) broadcasts_S1x256_S2048x256))
    (broadcast S2048x256 (Scalar.ofBits .f32 0x00000000#32))) bitsLt_bf16_f32

/-- The head's sixteen columns, of the second activations `l`. -/
def heads (l : FVec Ideal S2048x256 .bf16) (v24 : FVec Ideal S16x256 .bf16) (v28 : FVec Ideal S1x16 .f32) : FVec Ideal S2048x16 .f32 :=
  addf (matmul dot_S2048x256_S256x16_S2048x16_1_0_0_1_n_n none l
      (transpose S256x16 [1, 0] (shapeCast S16x256 v24 shapeCasts_S16x256_S16x256 : FVec Ideal S16x256 .bf16) transposes_S16x256_p1_0_S256x16 : FVec Ideal S256x16 .bf16)
      (constant S2048x16 .f32 0x00000000#32))
    (broadcastTo S2048x16 (shapeCast S1x16 v28 shapeCasts_S1x16_S1x16 : FVec Ideal S1x16 .f32) broadcasts_S1x16_S2048x16)

/-- The body's value before the logistic function is the mean half of the head plus the absolute spread half times the
    noise: the printed operations, with the three stages named. -/
theorem pay2_eq (v0 : Vec Ideal S2048x128 .f32) (v2 : Vec Ideal S256x128 .bf16) (v6 : Vec Ideal S1x256 .f32) (v13 : Vec Ideal S256x256 .bf16)
    (v17 : Vec Ideal S1x256 .f32) (v24 : Vec Ideal S16x256 .bf16) (v28 : Vec Ideal S1x16 .f32) (v35 : Vec Ideal S2048x8 .f32) :
    k0_pay2 v0 v2 v6 v13 v17 v24 v28 v35
      = addf (extractStridedSlice S2048x8 ![0, 0] (heads (act₂ (act₁ v0 v2 v6) v13 v17) v24 v28) slices_S2048x16_o0_0_S2048x8)
          (mulf (absf (extractStridedSlice S2048x8 ![0, 8] (heads (act₂ (act₁ v0 v2 v6) v13 v17) v24 v28) slices_S2048x16_o0_8_S2048x8)) v35) := rfl

/-! ## Each stage at an entry -/

theorem act₁_apply (v0 : FVec Ideal S2048x128 .f32) (v2 : FVec Ideal S256x128 .bf16) (v6 : FVec Ideal S1x256 .f32) (p : Fin 2048) (j : Fin 256) :
    act₁ v0 v2 v6 (ix2 p j) = Policy.hidden₁ (fun k => v0 (ix2 p k)) (fun j k => v2 (ix2 j k)) (fun j => v6 (ix2 0 j)) j := by
  unfold act₁
  rw [truncf_apply, maximumf_apply, addf_apply, product₁, bias₂₅₆]
  rfl

theorem act₂_apply (l : FVec Ideal S2048x256 .bf16) (v13 : FVec Ideal S256x256 .bf16) (v17 : FVec Ideal S1x256 .f32) (p : Fin 2048) (j : Fin 256) :
    act₂ l v13 v17 (ix2 p j) = Policy.hidden₂ (fun k => l (ix2 p k)) (fun j k => v13 (ix2 j k)) (fun j => v17 (ix2 0 j)) j := by
  unfold act₂
  rw [truncf_apply, maximumf_apply, addf_apply, product₂, bias₂₅₆]
  rfl

theorem heads_apply (l : FVec Ideal S2048x256 .bf16) (v24 : FVec Ideal S16x256 .bf16) (v28 : FVec Ideal S1x16 .f32) (p : Fin 2048) (j : Fin 16) :
    heads l v24 v28 (ix2 p j) = Policy.head (fun k => l (ix2 p k)) (fun j k => v24 (ix2 j k)) (fun j => v28 (ix2 0 j)) j := by
  unfold heads
  rw [addf_apply, product₃, bias₁₆]
  rfl

/-- Row `p` of the head, through the three stages, is the specification's `net` of row `p` of the state block. -/
theorem heads_row (v0 : FVec Ideal S2048x128 .f32) (v2 : FVec Ideal S256x128 .bf16) (v6 : FVec Ideal S1x256 .f32) (v13 : FVec Ideal S256x256 .bf16)
    (v17 : FVec Ideal S1x256 .f32) (v24 : FVec Ideal S16x256 .bf16) (v28 : FVec Ideal S1x16 .f32) (p : Fin 2048) (j : Fin 16) :
    heads (act₂ (act₁ v0 v2 v6) v13 v17) v24 v28 (ix2 p j)
      = Policy.net (fun k => v0 (ix2 p k)) (fun j k => v2 (ix2 j k)) (fun j => v6 (ix2 0 j)) (fun j k => v13 (ix2 j k)) (fun j => v17 (ix2 0 j))
          (fun j k => v24 (ix2 j k)) (fun j => v28 (ix2 0 j)) j := by
  have e₁ : (fun k => act₁ v0 v2 v6 (ix2 p k)) = Policy.hidden₁ (fun k => v0 (ix2 p k)) (fun j k => v2 (ix2 j k)) (fun j => v6 (ix2 0 j)) :=
    funext fun k => act₁_apply v0 v2 v6 p k
  have e₂ : (fun k => act₂ (act₁ v0 v2 v6) v13 v17 (ix2 p k))
      = Policy.hidden₂ (Policy.hidden₁ (fun k => v0 (ix2 p k)) (fun j k => v2 (ix2 j k)) (fun j => v6 (ix2 0 j))) (fun j k => v13 (ix2 j k)) (fun j => v17 (ix2 0 j)) :=
    funext fun k => (act₂_apply (act₁ v0 v2 v6) v13 v17 p k).trans (by rw [e₁])
  rw [heads_apply, e₂]
  rfl

/-- The two halves of the head, read at column `a` of the output block. -/
theorem mean_apply (y : FVec Ideal S2048x16 .f32) (p : Fin 2048) (a : Fin 8) :
    extractStridedSlice S2048x8 ![0, 0] y slices_S2048x16_o0_0_S2048x8 (ix2 p a) = y (ix2 p ⟨a.val, by omega⟩) :=
  extractStridedSlice_apply ![0, 0] y slices_S2048x16_o0_0_S2048x8 (ix2 p a) (ix2 p ⟨a.val, by omega⟩) (fun b => match b with
    | ⟨0, _⟩ => by show p.val = 0 + p.val; omega
    | ⟨1, _⟩ => by show a.val = 0 + a.val; omega)

theorem spread_apply (y : FVec Ideal S2048x16 .f32) (p : Fin 2048) (a : Fin 8) :
    extractStridedSlice S2048x8 ![0, 8] y slices_S2048x16_o0_8_S2048x8 (ix2 p a) = y (ix2 p ⟨8 + a.val, by omega⟩) :=
  extractStridedSlice_apply ![0, 8] y slices_S2048x16_o0_8_S2048x8 (ix2 p a) (ix2 p ⟨8 + a.val, by omega⟩) (fun b => match b with
    | ⟨0, _⟩ => by show p.val = 0 + p.val; omega
    | ⟨1, _⟩ => by show 8 + a.val = 8 + a.val; omega)

/-- The absolute value of a block, at an entry: the larger of the entry and its negative. -/
theorem abs_apply (y : FVec Ideal S2048x8 .f32) (i : S2048x8.Idx) : absf y i = max (y i) (-(y i)) := rfl

/-! ## The block's entry -/

/-- Entry `(p, a)` of what the body stores: the action word of row `p`'s sample `a`. -/
theorem entry (v0 : Vec Ideal S2048x128 .f32) (v2 : Vec Ideal S256x128 .bf16) (v6 : Vec Ideal S1x256 .f32) (v13 : Vec Ideal S256x256 .bf16)
    (v17 : Vec Ideal S1x256 .f32) (v24 : Vec Ideal S16x256 .bf16) (v28 : Vec Ideal S1x16 .f32) (v35 : Vec Ideal S2048x8 .f32) (p : Fin 2048) (a : Fin 8) :
    k0_pay1 (k0_pay2 v0 v2 v6 v13 v17 v24 v28 v35) (ix2 p a)
      = Policy.action (Policy.sample (Policy.net (fun k => v0 (ix2 p k)) (fun j k => v2 (ix2 j k)) (fun j => v6 (ix2 0 j)) (fun j k => v13 (ix2 j k)) (fun j => v17 (ix2 0 j))
          (fun j k => v24 (ix2 j k)) (fun j => v28 (ix2 0 j))) (fun a => v35 (ix2 p a)) a) := by
  have hy : k0_pay2 v0 v2 v6 v13 v17 v24 v28 v35 (ix2 p a)
      = Policy.sample (Policy.net (fun k => v0 (ix2 p k)) (fun j k => v2 (ix2 j k)) (fun j => v6 (ix2 0 j)) (fun j k => v13 (ix2 j k)) (fun j => v17 (ix2 0 j))
          (fun j k => v24 (ix2 j k)) (fun j => v28 (ix2 0 j))) (fun a => v35 (ix2 p a)) a := by
    rw [pay2_eq, addf_apply, mulf_apply, abs_apply, mean_apply, spread_apply, heads_row, heads_row]
    rfl
  show Policy.action (k0_pay2 v0 v2 v6 v13 v17 v24 v28 v35 (ix2 p a)) = _
  rw [hy]

end Cert.KernelIdeal.Row

end
-- ==== Proof.ReferenceRow.lean ====
/-
  What the reference computes, read at an entry of its result.

  The reference works on all 262144 rows at once, but entry `(r, j)` of each of its matrix products is again the sum over
  `k` of the left operand's `(r, k)` times the weight's `(j, k)` (it too transposes the weight first), each bias is repeated
  down the rows, and the rectifier, the slices at columns `a` and `8 + a`, the absolute value and the final scaling act
  entry by entry. It spells the logistic function out as `1.0 / (1.0 + exp (-y))`; on the extended reals that quotient IS
  the logistic function, the pattern of `1.0` denoting one. So entry `(r, a)` of the result is `Policy.policy` at `(r, a)`.
-/
import proofs.«144977_j34110630265503_1_alg».proof.Proof.Gen.ReferenceIdeal.Read
import proofs.«144977_j34110630265503_1_alg».proof.Proof.PolicySpec
import Idealize.ShloMosaic.Lib.IdealHost

noncomputable section

namespace Cert.ReferenceIdeal.Row

open Cert.ReferenceIdeal Cert.ReferenceIdeal.Gen Cert.ReferenceIdeal.Read Idealize.ShloMosaic Idealize.ShloMosaic.ValueIdx Idealize.ShloMosaic.TcCoe

/-- The host's spelling of the logistic function, with its two copies of the pattern of `1.0`, is the logistic function. -/
theorem logistic_spelt (y : EReal) :
    Ideal.div (Ideal.ofBits .f32 0x3F800000#32) (Ideal.ofBits .f32 0x3F800000#32 + Ideal.exp (-y)) = Ideal.logistic y := by
  rw [Ideal.ofBits_one_f32]
  rfl

/-- The first hidden layer at `(r, j)`. -/
theorem hidden₁_apply (x0 : (⟨S262144x128, .f32⟩ : BufTy).Contents (Elt Ideal)) (x1 : (⟨S256x128, .f32⟩ : BufTy).Contents (Elt Ideal)) (x2 : (⟨S256, .f32⟩ : BufTy).Contents (Elt Ideal)) (r : Fin 262144) (j : Fin 256) :
    val_main_v5 (F := Ideal) x0 x1 x2 (ix2 r j) = Policy.hidden₁ (fun k => x0 (ix2 r k)) (fun j k => x1 (ix2 j k)) (fun j => x2 (ix1 j)) j := by
  have e0 : ∀ k : Fin 128, lidx_main_v1 (ix2 r j) k = ix2 r k := fun k => funext fun a => Fin.ext (by
    match a with | ⟨0, _⟩ => rfl | ⟨1, _⟩ => rfl)
  have e1 : ∀ k : Fin 128, idx_main_v0 (ridx_main_v1 (ix2 r j) k) = ix2 j k := fun k => funext fun a => Fin.ext (by
    match a with | ⟨0, _⟩ => rfl | ⟨1, _⟩ => rfl)
  have e2 : idx_main_v2 (idx_main_v3 (ix2 r j)) = ix1 j := funext fun a => Fin.ext (by
    match a with | ⟨0, _⟩ => rfl)
  rw [val_main_v5_apply, val_main_v4_apply, val_main_v1_apply, val_main_v3_apply, val_main_v2_apply, e2, val_main_call0_v0_apply, val_main_call0_cst_apply]
  simp only [val_main_v0_apply, e0, e1]
  rfl

/-- The second hidden layer at `(r, j)`, of the first one's row. -/
theorem hidden₂_apply (x0 : (⟨S262144x128, .f32⟩ : BufTy).Contents (Elt Ideal)) (x1 : (⟨S256x128, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (r : Fin 262144) (j : Fin 256) :
    val_main_v11 (F := Ideal) x0 x1 x2 x3 x4 (ix2 r j)
      = Policy.hidden₂ (fun k => val_main_v5 (F := Ideal) x0 x1 x2 (ix2 r k)) (fun j k => x3 (ix2 j k)) (fun j => x4 (ix1 j)) j := by
  have e0 : ∀ k : Fin 256, lidx_main_v7 (ix2 r j) k = ix2 r k := fun k => funext fun a => Fin.ext (by
    match a with | ⟨0, _⟩ => rfl | ⟨1, _⟩ => rfl)
  have e1 : ∀ k : Fin 256, idx_main_v6 (ridx_main_v7 (ix2 r j) k) = ix2 j k := fun k => funext fun a => Fin.ext (by
    match a with | ⟨0, _⟩ => rfl | ⟨1, _⟩ => rfl)
  have e2 : idx_main_v8 (idx_main_v9 (ix2 r j)) = ix1 j := funext fun a => Fin.ext (by
    match a with | ⟨0, _⟩ => rfl)
  rw [val_main_v11_apply, val_main_v10_apply, val_main_v7_apply, val_main_v9_apply, val_main_v8_apply, e2, val_main_call1_v0_apply, val_main_call1_cst_apply]
  simp only [val_main_v6_apply, e0, e1]
  rfl

/-- The head at `(r, j)`, of the second hidden layer's row. -/
theorem head_apply (x0 : (⟨S262144x128, .f32⟩ : BufTy).Contents (Elt Ideal)) (x1 : (⟨S256x128, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S16x256, .f32⟩ : BufTy).Contents (Elt Ideal)) (x6 : (⟨S16, .f32⟩ : BufTy).Contents (Elt Ideal)) (r : Fin 262144) (j : Fin 16) :
    val_main_v16 (F := Ideal) x0 x1 x2 x3 x4 x5 x6 (ix2 r j)
      = Policy.head (fun k => val_main_v11 (F := Ideal) x0 x1 x2 x3 x4 (ix2 r k)) (fun j k => x5 (ix2 j k)) (fun j => x6 (ix1 j)) j := by
  have e0 : ∀ k : Fin 256, lidx_main_v13 (ix2 r j) k = ix2 r k := fun k => funext fun a => Fin.ext (by
    match a with | ⟨0, _⟩ => rfl | ⟨1, _⟩ => rfl)
  have e1 : ∀ k : Fin 256, idx_main_v12 (ridx_main_v13 (ix2 r j) k) = ix2 j k := fun k => funext fun a => Fin.ext (by
    match a with | ⟨0, _⟩ => rfl | ⟨1, _⟩ => rfl)
  have e2 : idx_main_v14 (idx_main_v15 (ix2 r j)) = ix1 j := funext fun a => Fin.ext (by
    match a with | ⟨0, _⟩ => rfl)
  rw [val_main_v16_apply, val_main_v13_apply, val_main_v15_apply, val_main_v14_apply, e2]
  simp only [val_main_v12_apply, e0, e1]
  rfl

/-- Row `r` of the head is the specification's `net` of row `r` of the state. -/
theorem head_row (x0 : (⟨S262144x128, .f32⟩ : BufTy).Contents (Elt Ideal)) (x1 : (⟨S256x128, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S16x256, .f32⟩ : BufTy).Contents (Elt Ideal)) (x6 : (⟨S16, .f32⟩ : BufTy).Contents (Elt Ideal)) (r : Fin 262144) (j : Fin 16) :
    val_main_v16 (F := Ideal) x0 x1 x2 x3 x4 x5 x6 (ix2 r j) = Policy.net (fun k => x0 (ix2 r k)) (fun j k => x1 (ix2 j k)) (fun j => x2 (ix1 j)) (fun j k => x3 (ix2 j k)) (fun j => x4 (ix1 j)) (fun j k => x5 (ix2 j k)) (fun j => x6 (ix1 j)) j := by
  have e₁ : (fun k => val_main_v5 (F := Ideal) x0 x1 x2 (ix2 r k)) = Policy.hidden₁ (fun k => x0 (ix2 r k)) (fun j k => x1 (ix2 j k)) (fun j => x2 (ix1 j)) :=
    funext fun k => hidden₁_apply x0 x1 x2 r k
  have e₂ : (fun k => val_main_v11 (F := Ideal) x0 x1 x2 x3 x4 (ix2 r k))
      = Policy.hidden₂ (Policy.hidden₁ (fun k => x0 (ix2 r k)) (fun j k => x1 (ix2 j k)) (fun j => x2 (ix1 j))) (fun j k => x3 (ix2 j k)) (fun j => x4 (ix1 j)) :=
    funext fun k => (hidden₂_apply x0 x1 x2 x3 x4 r k).trans (by rw [e₁])
  rw [head_apply, e₂]
  rfl

/-- Entry `(r, a)` of the reference's result is the specification's. -/
theorem result_apply (x0 : (⟨S262144x128, .f32⟩ : BufTy).Contents (Elt Ideal)) (x1 : (⟨S256x128, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S16x256, .f32⟩ : BufTy).Contents (Elt Ideal)) (x6 : (⟨S16, .f32⟩ : BufTy).Contents (Elt Ideal)) (x7 : (⟨S262144x8, .f32⟩ : BufTy).Contents (Elt Ideal)) (r : Fin 262144) (a : Fin 8) :
    val_main_v32 (F := Ideal) x0 x1 x2 x3 x4 x5 x6 x7 (ix2 r a)
      = Policy.policy (fun r k => x0 (ix2 r k)) (fun j k => x1 (ix2 j k)) (fun j => x2 (ix1 j)) (fun j k => x3 (ix2 j k)) (fun j => x4 (ix1 j))
          (fun j k => x5 (ix2 j k)) (fun j => x6 (ix1 j)) (fun r a => x7 (ix2 r a)) r a := by
  have e17 : idx_main_v17 (ix2 r a) = ix2 r ⟨a.val, by omega⟩ := funext fun b => Fin.ext (by
    match b with | ⟨0, _⟩ => rfl | ⟨1, _⟩ => rfl)
  have e18 : idx_main_v18 (ix2 r a) = ix2 r ⟨8 + a.val, by omega⟩ := funext fun b => Fin.ext (by
    match b with | ⟨0, _⟩ => rfl | ⟨1, _⟩ => rfl)
  rw [val_main_v32_apply, val_main_v31_apply, val_main_v29_apply, val_main_v30_apply, val_main_cst_2_apply, val_main_v27_apply,
    val_main_v28_apply, val_main_cst_1_apply, val_main_v26_apply, val_main_cst_0_apply, val_main_v25_apply, val_main_v24_apply,
    val_main_cst_apply, val_main_v23_apply, val_main_v22_apply, val_main_v21_apply, val_main_v17_apply, val_main_v20_apply,
    val_main_v19_apply, val_main_v18_apply, e17, e18, head_row, head_row]
  exact congrArg (fun z => Ideal.fptosi 32 (z * Ideal.ofBits .f32 0x41000000#32 + Ideal.ofBits .f32 0x3F800000#32))
    (logistic_spelt (Policy.sample (Policy.net (fun k => x0 (ix2 r k)) (fun j k => x1 (ix2 j k)) (fun j => x2 (ix1 j)) (fun j k => x3 (ix2 j k)) (fun j => x4 (ix1 j)) (fun j k => x5 (ix2 j k)) (fun j => x6 (ix1 j))) (fun a => x7 (ix2 r a)) a))

end Cert.ReferenceIdeal.Row

end
-- ==== Proof.PolicyBlocks.lean ====
/-
  From one grid point's block to the whole result array.

  The grid has 128 points; point `t` sees rows `2048·t … 2048·t + 2047` of the state and of the noise (its two moving
  windows), every weight matrix and bias whole (their windows stay at block zero), and writes rows `2048·t …` of the
  result. The weights reach the region through a change of float format, the identity on the extended reals, and each bias
  through a reshape of its `n` entries to one row of `n`, which keeps entry `j` at column `j`. So what point `t` writes back
  is block `t` of ONE function of the argument arrays as launched — `Policy.policy` of them — and since every row
  `r` lies in the block of point `r / 2048`, the array ends holding that function everywhere.
-/
import proofs.«144977_j34110630265503_1_alg».proof.Proof.Gen.KernelIdeal.Value
import proofs.«144977_j34110630265503_1_alg».proof.Proof.KernelRow
import Idealize.ShloMosaic.Lib.StableHlo.Run

set_option maxRecDepth 16384

noncomputable section

namespace Cert.KernelIdeal.Blocks

open Cert.KernelIdeal Cert.KernelIdeal.Gen Cert.KernelIdeal.Value Idealize.ShloMosaic Idealize.ShloMosaic.ValueIdx Idealize.ShloMosaic.TcCoe
open Idealize.SL.Sem Idealize.ShloMosaic.StableHlo
open Idealize.ShloMosaic.Pipeline (Dat)

variable (m : (ℓ : Loc nD τ sig) → Buf (Elt Ideal) ℓ) (ρ : Dev nD → PrngReg)

/-! ## The result as one function of the arguments -/

/-- The result array of core `c`: the specification, of the argument arrays as launched. -/
def result (c : Dev nD) : S262144x8.Idx → BitVec 32 := fun i =>
  Policy.policy (fun r k => m ((c : Thread nD τ).loc main_arg0) (ix2 r k)) (fun j k => m ((c : Thread nD τ).loc main_arg1) (ix2 j k)) (fun j => m ((c : Thread nD τ).loc main_arg2) (ix1 j))
    (fun j k => m ((c : Thread nD τ).loc main_arg3) (ix2 j k)) (fun j => m ((c : Thread nD τ).loc main_arg4) (ix1 j)) (fun j k => m ((c : Thread nD τ).loc main_arg5) (ix2 j k)) (fun j => m ((c : Thread nD τ).loc main_arg6) (ix1 j))
    (fun r a => m ((c : Thread nD τ).loc main_arg7) (ix2 r a)) (i 0) (i 1)

/-! ## The index maps, decided over the 128 points -/

/-- The state's, the noise's and the result's windows sit at block `(t, 0)`; the weights' and biases' at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `p` of point `t`'s blocks is row `2048·t + p` of the arrays. -/
def row (t : Fin cfg0.N) (p : Fin 2048) : Fin 262144 :=
  ⟨t.val * 2048 + p.val, by have ht : t.val < 128 := t.isLt; have hp := p.isLt; omega⟩

/-! ## Each window's block, read off the arguments as launched -/

theorem state_blk (c : Dev nD) (t : Fin cfg0.N) (p : Fin 2048) (k : Fin 128) :
    iblk m c 0 t (ix2 p k) = m ((c : Thread nD τ).loc main_arg0) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * k.val = k.val; omega

theorem noise_blk (c : Dev nD) (t : Fin cfg0.N) (p : Fin 2048) (a : Fin 8) :
    iblk m c 1 t (ix2 p a) = m ((c : Thread nD τ).loc main_arg7) (ix2 (row t p) a) := by
  obtain ⟨-, -, e0, e1, -⟩ := idx_facts t
  show V m c main_arg7 (((cfg0.win 1).blk t).view.emb (ix2 p a)) = _
  rw [V_main_arg7]
  refine congrArg _ (funext fun b => Fin.ext ?_)
  match b with
  | ⟨0, _⟩ => show win0_1.index t (0 : Fin 2) * 2048 + 1 * p.val = t.val * 2048 + p.val; omega
  | ⟨1, _⟩ => show win0_1.index t (1 : Fin 2) * 8 + 1 * a.val = a.val; omega

/-- A weight reaches the region in the narrower float format: the same extended reals. -/
theorem weight₁ (c : Dev nD) : (V m c main_v0 : S256x128.Idx → EReal) = m ((c : Thread nD τ).loc main_arg1) := by
  dsimp only [Gen.V, Gen.hostOps0]; after_results; rfl
theorem weight₂ (c : Dev nD) : (V m c main_v1 : S256x256.Idx → EReal) = m ((c : Thread nD τ).loc main_arg3) := by
  dsimp only [Gen.V, Gen.hostOps0]; after_results; rfl
theorem weight₃ (c : Dev nD) : (V m c main_v2 : S16x256.Idx → EReal) = m ((c : Thread nD τ).loc main_arg5) := by
  dsimp only [Gen.V, Gen.hostOps0]; after_results; rfl

/-- A bias reaches the region as one row: entry `j` at column `j`. -/
theorem bias₁ (c : Dev nD) (j : Fin 256) : (V m c main_v3 : S1x256.Idx → EReal) (ix2 0 j) = m ((c : Thread nD τ).loc main_arg2) (ix1 j) := by
  have e : (V m c main_v3 : S1x256.Idx → EReal) = shapeCast S1x256 (m ((c : Thread nD τ).loc main_arg2)) shapeCasts_S256_S1x256 := by
    dsimp only [Gen.V, Gen.hostOps0]; after_results; rfl
  rw [e]
  exact shapeCast_apply _ shapeCasts_S256_S1x256 (ix2 0 j) (ix1 j) (by
    rw [Shape.rowMajor_val_one, Shape.rowMajor_val_two]; show j.val = 0 * 256 + j.val; omega)
theorem bias₂ (c : Dev nD) (j : Fin 256) : (V m c main_v4 : S1x256.Idx → EReal) (ix2 0 j) = m ((c : Thread nD τ).loc main_arg4) (ix1 j) := by
  have e : (V m c main_v4 : S1x256.Idx → EReal) = shapeCast S1x256 (m ((c : Thread nD τ).loc main_arg4)) shapeCasts_S256_S1x256 := by
    dsimp only [Gen.V, Gen.hostOps0]; after_results; rfl
  rw [e]
  exact shapeCast_apply _ shapeCasts_S256_S1x256 (ix2 0 j) (ix1 j) (by
    rw [Shape.rowMajor_val_one, Shape.rowMajor_val_two]; show j.val = 0 * 256 + j.val; omega)
theorem bias₃ (c : Dev nD) (j : Fin 16) : (V m c main_v5 : S1x16.Idx → EReal) (ix2 0 j) = m ((c : Thread nD τ).loc main_arg6) (ix1 j) := by
  have e : (V m c main_v5 : S1x16.Idx → EReal) = shapeCast S1x16 (m ((c : Thread nD τ).loc main_arg6)) shapeCasts_S16_S1x16 := by
    dsimp only [Gen.V, Gen.hostOps0]; after_results; rfl
  rw [e]
  exact shapeCast_apply _ shapeCasts_S16_S1x16 (ix2 0 j) (ix1 j) (by
    rw [Shape.rowMajor_val_one, Shape.rowMajor_val_two]; show j.val = 0 * 16 + j.val; omega)

/-- The weights' and biases' windows never move: their block at any point is the whole array. -/
theorem weight₁_blk (c : Dev nD) (t : Fin cfg0.N) (j : Fin 256) (k : Fin 128) :
    iblk m c 2 t (ix2 j k) = m ((c : Thread nD τ).loc main_arg1) (ix2 j k) := by
  have hf := idx_facts t
  show (V m c main_v0 : S256x128.Idx → EReal) (((cfg0.win 2).blk t).view.emb (ix2 j k)) = _
  rw [weight₁]
  refine congrArg _ (funext fun a => Fin.ext ?_)
  match a with
  | ⟨0, _⟩ => show win0_2.index t (0 : Fin 2) * 256 + 1 * j.val = j.val; omega
  | ⟨1, _⟩ => show win0_2.index t (1 : Fin 2) * 128 + 1 * k.val = k.val; omega

theorem weight₂_blk (c : Dev nD) (t : Fin cfg0.N) (j : Fin 256) (k : Fin 256) :
    iblk m c 4 t (ix2 j k) = m ((c : Thread nD τ).loc main_arg3) (ix2 j k) := by
  have hf := idx_facts t
  show (V m c main_v1 : S256x256.Idx → EReal) (((cfg0.win 4).blk t).view.emb (ix2 j k)) = _
  rw [weight₂]
  refine congrArg _ (funext fun a => Fin.ext ?_)
  match a with
  | ⟨0, _⟩ => show win0_4.index t (0 : Fin 2) * 256 + 1 * j.val = j.val; omega
  | ⟨1, _⟩ => show win0_4.index t (1 : Fin 2) * 256 + 1 * k.val = k.val; omega

theorem weight₃_blk (c : Dev nD) (t : Fin cfg0.N) (j : Fin 16) (k : Fin 256) :
    iblk m c 6 t (ix2 j k) = m ((c : Thread nD τ).loc main_arg5) (ix2 j k) := by
  have hf := idx_facts t
  show (V m c main_v2 : S16x256.Idx → EReal) (((cfg0.win 6).blk t).view.emb (ix2 j k)) = _
  rw [weight₃]
  refine congrArg _ (funext fun a => Fin.ext ?_)
  match a with
  | ⟨0, _⟩ => show win0_6.index t (0 : Fin 2) * 16 + 1 * j.val = j.val; omega
  | ⟨1, _⟩ => show win0_6.index t (1 : Fin 2) * 256 + 1 * k.val = k.val; omega

/-- A bias block is the bias's one row: row `0`, column `j` of the block is entry `j` of the bias as launched. -/
theorem bias₁_blk (c : Dev nD) (t : Fin cfg0.N) (j : Fin 256) :
    iblk m c 3 t (ix2 0 j) = m ((c : Thread nD τ).loc main_arg2) (ix1 j) := by
  have hf := idx_facts t
  have h : ((cfg0.win 3).blk t).view.emb (ix2 (0 : Fin 1) j) = ix2 0 j := funext fun a => Fin.ext (by
    match a with
    | ⟨0, _⟩ => show win0_3.index t (0 : Fin 2) * 1 + 1 * 0 = 0; omega
    | ⟨1, _⟩ => show win0_3.index t (1 : Fin 2) * 256 + 1 * j.val = j.val; omega)
  show (V m c main_v3 : S1x256.Idx → EReal) (((cfg0.win 3).blk t).view.emb (ix2 (0 : Fin 1) j)) = _
  rw [h]
  exact bias₁ m c j

theorem bias₂_blk (c : Dev nD) (t : Fin cfg0.N) (j : Fin 256) :
    iblk m c 5 t (ix2 0 j) = m ((c : Thread nD τ).loc main_arg4) (ix1 j) := by
  have hf := idx_facts t
  have h : ((cfg0.win 5).blk t).view.emb (ix2 (0 : Fin 1) j) = ix2 0 j := funext fun a => Fin.ext (by
    match a with
    | ⟨0, _⟩ => show win0_5.index t (0 : Fin 2) * 1 + 1 * 0 = 0; omega
    | ⟨1, _⟩ => show win0_5.index t (1 : Fin 2) * 256 + 1 * j.val = j.val; omega)
  show (V m c main_v4 : S1x256.Idx → EReal) (((cfg0.win 5).blk t).view.emb (ix2 (0 : Fin 1) j)) = _
  rw [h]
  exact bias₂ m c j

theorem bias₃_blk (c : Dev nD) (t : Fin cfg0.N) (j : Fin 16) :
    iblk m c 7 t (ix2 0 j) = m ((c : Thread nD τ).loc main_arg6) (ix1 j) := by
  have hf := idx_facts t
  have h : ((cfg0.win 7).blk t).view.emb (ix2 (0 : Fin 1) j) = ix2 0 j := funext fun a => Fin.ext (by
    match a with
    | ⟨0, _⟩ => show win0_7.index t (0 : Fin 2) * 1 + 1 * 0 = 0; omega
    | ⟨1, _⟩ => show win0_7.index t (1 : Fin 2) * 16 + 1 * j.val = j.val; omega)
  show (V m c main_v5 : S1x16.Idx → EReal) (((cfg0.win 7).blk t).view.emb (ix2 (0 : Fin 1) j)) = _
  rw [h]
  exact bias₃ m c j

/-! ## What a point writes back -/

theorem hz : (![0, 0] : Fin 2 → Nat) = fun _ => 0 := funext fun a => by fin_cases a <;> rfl

/-- Entry `(p, a)` of point `t`'s block is entry `(2048·t + p, a)` of the result array. -/
theorem result_emb (t : Fin cfg0.N) (p : Fin 2048) (a : Fin 8) :
    ((cfg0.win 8).blk t).view.emb (ix2 p a) = ix2 (row t p) a := by
  have hf := idx_facts t
  refine funext fun b => Fin.ext ?_
  match b with
  | ⟨0, _⟩ => show win0_8.index t (0 : Fin 2) * 2048 + 1 * p.val = t.val * 2048 + p.val; omega
  | ⟨1, _⟩ => show win0_8.index t (1 : Fin 2) * 8 + 1 * a.val = a.val; omega

/-- WHAT POINT `t` WRITES BACK is block `t` of `result`. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz]
  simp only [View.ld_unit_zero (S := S2048x128) hz, View.ld_unit_zero (S := S2048x8) hz, View.ld_unit_zero (S := S256x128) hz,
    View.ld_unit_zero (S := S1x256) hz, View.ld_unit_zero (S := S256x256) hz, View.ld_unit_zero (S := S16x256) hz,
    View.ld_unit_zero (S := S1x16) hz]
  funext y
  obtain ⟨p, a, rfl⟩ : ∃ (p : Fin 2048) (a : Fin 8), y = ix2 p a := ⟨y 0, y 1, eq_ix2 y⟩
  show k0_pay1 (k0_pay2 (iblk m c 0 t) (iblk m c 2 t) (iblk m c 3 t) (iblk m c 4 t) (iblk m c 5 t) (iblk m c 6 t) (iblk m c 7 t) (iblk m c 1 t)) (ix2 p a)
    = result m c (((cfg0.win 8).blk t).view.emb (ix2 p a))
  have hx : (fun k => iblk m c 0 t (ix2 p k)) = fun k => m ((c : Thread nD τ).loc main_arg0) (ix2 (row t p) k) := funext fun k => state_blk m c t p k
  have he : (fun a => iblk m c 1 t (ix2 p a)) = fun a => m ((c : Thread nD τ).loc main_arg7) (ix2 (row t p) a) := funext fun a => noise_blk m c t p a
  have hW₁ : (fun j k => iblk m c 2 t (ix2 j k)) = fun j k => m ((c : Thread nD τ).loc main_arg1) (ix2 j k) := funext fun j => funext fun k => weight₁_blk m c t j k
  have hW₂ : (fun j k => iblk m c 4 t (ix2 j k)) = fun j k => m ((c : Thread nD τ).loc main_arg3) (ix2 j k) := funext fun j => funext fun k => weight₂_blk m c t j k
  have hW₃ : (fun j k => iblk m c 6 t (ix2 j k)) = fun j k => m ((c : Thread nD τ).loc main_arg5) (ix2 j k) := funext fun j => funext fun k => weight₃_blk m c t j k
  have hb₁ : (fun j => iblk m c 3 t (ix2 0 j)) = fun j => m ((c : Thread nD τ).loc main_arg2) (ix1 j) := funext fun j => bias₁_blk m c t j
  have hb₂ : (fun j => iblk m c 5 t (ix2 0 j)) = fun j => m ((c : Thread nD τ).loc main_arg4) (ix1 j) := funext fun j => bias₂_blk m c t j
  have hb₃ : (fun j => iblk m c 7 t (ix2 0 j)) = fun j => m ((c : Thread nD τ).loc main_arg6) (ix1 j) := funext fun j => bias₃_blk m c t j
  rw [result_emb]
  refine (Row.entry (iblk m c 0 t) (iblk m c 2 t) (iblk m c 3 t) (iblk m c 4 t) (iblk m c 5 t) (iblk m c 6 t) (iblk m c 7 t) (iblk m c 1 t) p a).trans ?_
  rw [hx, he, hW₁, hW₂, hW₃, hb₁, hb₂, hb₃]
  rfl

/-! ## The blocks cover the array -/

/-- An index of the array is in point `t`'s block iff each coordinate is in the block's range on its axis. -/
theorem mem_blk (t : Fin cfg0.N) (i : S262144x8.Idx) :
    i ∈ ((cfg0.win 8).blk t).view.set ↔ ∀ a : Fin 2, win0_8.index t a * S2048x8.size a ≤ (i a).val ∧ (i a).val < win0_8.index t a * S2048x8.size a + S2048x8.size a := by
  show i ∈ ((View.whole main_v6).slice (win0_8.rect t)).set ↔ _
  rw [View.set_slice_whole, Rect.mem_set_unit]
  exact Iff.rfl

/-- Row `r` lies in the block of point `r / 2048`. -/
theorem cover (i : S262144x8.Idx) : ∃ t : Fin cfg0.N, (cfg0.win 8).flush t = true ∧ i ∈ ((cfg0.win 8).blk t).view.set := by
  have hi0 : (i 0).val < 262144 := (i 0).isLt
  have hi1 : (i 1).val < 8 := (i 1).isLt
  have ht : (i 0).val / 2048 < 128 := by omega
  have hf := idx_facts ⟨(i 0).val / 2048, ht⟩
  refine ⟨⟨(i 0).val / 2048, ht⟩, flush0_8 _, ?_⟩
  rw [mem_blk]
  intro a
  match a with
  | ⟨0, _⟩ =>
    show win0_8.index ⟨(i 0).val / 2048, ht⟩ (0 : Fin 2) * 2048 ≤ (i 0).val ∧ (i 0).val < win0_8.index ⟨(i 0).val / 2048, ht⟩ (0 : Fin 2) * 2048 + 2048
    have hv : (⟨(i 0).val / 2048, ht⟩ : Fin cfg0.N).val = (i 0).val / 2048 := rfl
    omega
  | ⟨1, _⟩ =>
    show win0_8.index ⟨(i 0).val / 2048, ht⟩ (1 : Fin 2) * 8 ≤ (i 1).val ∧ (i 1).val < win0_8.index ⟨(i 0).val / 2048, ht⟩ (1 : Fin 2) * 8 + 8
    omega

/-! ## The array after the run, and the run -/

/-- After the last point the result array holds `result` everywhere. -/
theorem final (c : Dev nD) : (dats m 0 c).arrAt 8 cfg0.N = result m c :=
  (dats m 0 c).arrAt_eq_of_cover 8 (result m c) (fun t _ => flushed_eq m c t) cover

/-- The kernel's run: it ends, with the result array at `result` and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.lean ====
/-
  The certificate of a small policy network's sampled action, against its plain reference.

  Both programs take a state of 262144 rows of 128 entries, three weight matrices with their biases and a noise array,
  and return for every row eight action words: the row goes through two rectified affine layers of width 256 and an
  affine head of width 16, the head's halves are a mean and a spread, and the action is the logistic function of
  `mean + |spread| · noise`, scaled by 8, shifted by 1 and rounded toward zero to 32 bits (`Policy.policy`).

  The kernel does this 2048 rows at a time over a grid of 128 points, with the weights held in a narrower float format;
  the reference does it on the whole array at once and spells the logistic function as a quotient. On the extended reals
  the change of format is the identity, each matrix product on either side is the same sum of the same products, the
  quotient is the logistic function, and everything else is the same scalar operation entry by entry: so both end with
  the one function `Policy.policy` of the arguments — the kernel block by block (`Blocks.run`: the blocks tile the
  array), the reference entry by entry (`Row.result_apply`). No rearrangement of sums or products is used, and the
  inputs' finiteness is never needed.

  The three frames are the programs' runs with the results dropped; the kernel's idealization rewrote no operation, so
  there is nothing to preserve.
-/
import proofs.«144977_j34110630265503_1_alg».proof.Defs
import proofs.«144977_j34110630265503_1_alg».proof.Proof.Gen.Kernel
import proofs.«144977_j34110630265503_1_alg».proof.Proof.Gen.Kernel.Skeleton
import proofs.«144977_j34110630265503_1_alg».proof.Proof.Gen.Kernel.Launch
import proofs.«144977_j34110630265503_1_alg».proof.Proof.Gen.Kernel.Points
import proofs.«144977_j34110630265503_1_alg».proof.Proof.Gen.Kernel.Frame
import proofs.«144977_j34110630265503_1_alg».proof.Proof.Gen.KernelIdeal
import proofs.«144977_j34110630265503_1_alg».proof.Proof.Gen.KernelIdeal.Skeleton
import proofs.«144977_j34110630265503_1_alg».proof.Proof.Gen.KernelIdeal.Launch
import proofs.«144977_j34110630265503_1_alg».proof.Proof.Gen.KernelIdeal.Points
import proofs.«144977_j34110630265503_1_alg».proof.Proof.Gen.KernelIdeal.Frame
import proofs.«144977_j34110630265503_1_alg».proof.Proof.Gen.ReferenceIdeal
import proofs.«144977_j34110630265503_1_alg».proof.Proof.Gen.Pre_finite_inputs
import proofs.«144977_j34110630265503_1_alg».proof.Proof.Gen.KernelIdeal.Value
import proofs.«144977_j34110630265503_1_alg».proof.Proof.Gen.ReferenceIdeal.Run
import proofs.«144977_j34110630265503_1_alg».proof.Proof.Gen.ReferenceIdeal.Read
import proofs.«144977_j34110630265503_1_alg».proof.Proof.PolicySpec
import proofs.«144977_j34110630265503_1_alg».proof.Proof.KernelRow
import proofs.«144977_j34110630265503_1_alg».proof.Proof.ReferenceRow
import proofs.«144977_j34110630265503_1_alg».proof.Proof.PolicyBlocks
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, both programs end with `Policy.policy` of the
    arguments in their result arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq]
  funext i
  obtain ⟨r, a, rfl⟩ : ∃ (r : Fin 262144) (a : Fin 8), i = ix2 r a := ⟨i 0, i 1, eq_ix2 i⟩
  rw [Cert.ReferenceIdeal.Row.result_apply]
  obtain ⟨h0, h1, h2, h3, h4, h5, h6, h7⟩ := hagree c
  rw [h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
